-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x500 .f32) (main_arg1 : IVec S2x1600000 32) (main_arg2 : FVec F S500x64 .f32) (main_arg3 : FVec F S64 .f32) (main_arg4 : FVec F S64x3 .f32) (main_arg5 : FVec F S3 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x64 .f32 := Host.absf main_arg2
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3 .f32 := Host.absf main_arg4
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg5 main_v13 main_v16
-- ==== Kernel.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x500 : Shape := ⟨2, ![2000, 500]⟩
abbrev S2000x64 : Shape := ⟨2, ![2000, 64]⟩
abbrev S1700000x64 : Shape := ⟨2, ![1700000, 64]⟩
abbrev S1x64 : Shape := ⟨2, ![1, 64]⟩
abbrev S100000x3 : Shape := ⟨2, ![100000, 3]⟩
abbrev S5000x64 : Shape := ⟨2, ![5000, 64]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 89
  | .vmem => 10
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x3, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x3, .f32⟩
  | .hbm, ⟨79, _⟩ => ⟨S1700000x1, .f32⟩
  | .hbm, ⟨80, _⟩ => ⟨S1700000x3, .f32⟩
  | .hbm, ⟨81, _⟩ => ⟨S1700000x3, .f32⟩
  | .hbm, ⟨82, _⟩ => ⟨S_, .f32⟩
  | .hbm, ⟨83, _⟩ => ⟨S100000x3, .f32⟩
  | .hbm, ⟨84, _⟩ => ⟨S1700000x1, .i32⟩
  | .hbm, ⟨85, _⟩ => ⟨S100000x3, .f32⟩
  | .hbm, ⟨86, _⟩ => ⟨S1x3, .f32⟩
  | .hbm, ⟨87, _⟩ => ⟨S100000x3, .f32⟩
  | .hbm, ⟨88, _⟩ => ⟨S100000x3, .f32⟩
  | .local _ .vmem, ⟨0, _⟩ => ⟨S2000x500, .f32⟩
  | .local _ .vmem, ⟨1, _⟩ => ⟨S2000x500, .f32⟩
  | .local _ .vmem, ⟨2, _⟩ => ⟨S500x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S64x3, .f32⟩
  | .local _ .vmem, ⟨8, _⟩ => ⟨S5000x3, .f32⟩
  | .local _ .vmem, ⟨9, _⟩ => ⟨S5000x3, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x3_S64x3_0_0 : ∀ a, (![0, 0] : Fin 2 → Nat) a + S64x3.size a ≤ S64x3.size a
  h_S64x3 : 0 < S64x3.numel
  inb_S5000x3_S5000x3_0_0 : ∀ a, (![0, 0] : Fin 2 → Nat) a + S5000x3.size a ≤ S5000x3.size a
  h_S5000x3 : 0 < S5000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x500_S500x64_S2000x64_1_0_0_1_n_n_wf : DotDims.WF S2000x500 S500x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x3_S5000x3_1_0_0_1_n_n_wf : DotDims.WF S5000x64 S64x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x3.size a ≤ S64x3.size a
  hwx1_1 : ∀ i : grid1.Coords, EltTy.bits .f32 = 32 ∨ (Rect.block (s := S64x3) S64x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S100000x3.size a
  hwx1_2 : ∀ i : grid1.Coords, EltTy.bits .f32 = 32 ∨ (Rect.block (s := S100000x3) S5000x3.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x500_S500x64_S2000x64_1_0_0_1_n_n : DotDims S2000x500 S500x64 S2000x64 where
  lhsContracting := [1]
  rhsContracting := [0]
  lhsNonContracting := [0]
  rhsNonContracting := [1]
  lhsBatch := []
  rhsBatch := []
  wf := dot_S2000x500_S500x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 125
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S100000x3, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x3, .f32⟩
  | .hbm, ⟨115, _⟩ => ⟨S1700000x1, .f32⟩
  | .hbm, ⟨116, _⟩ => ⟨S1700000x3, .f32⟩
  | .hbm, ⟨117, _⟩ => ⟨S1700000x3, .f32⟩
  | .hbm, ⟨118, _⟩ => ⟨S_, .f32⟩
  | .hbm, ⟨119, _⟩ => ⟨S100000x3, .f32⟩
  | .hbm, ⟨120, _⟩ => ⟨S1700000x1, .i32⟩
  | .hbm, ⟨121, _⟩ => ⟨S100000x3, .f32⟩
  | .hbm, ⟨122, _⟩ => ⟨S1x3, .f32⟩
  | .hbm, ⟨123, _⟩ => ⟨S100000x3, .f32⟩
  | .hbm, ⟨124, _⟩ => ⟨S100000x3, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x64_S100000x64_1_0_0_1_n_n_wf : DotDims.WF S100000x500 S500x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x3_S100000x3_1_0_0_1_n_n_wf : DotDims.WF S100000x64 S64x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.Layer1.lean ====
/-
  Layer 1's dense transform, read off the first pipelined region. The region walks the 100000 rows of its left
  operand in 50 blocks of 2000 rows; at a block it multiplies the 2000 x 500 block by the whole 500 x 64 right operand
  (the change of float format before the product is the identity on extended reals, and the product accumulates into a
  zero block) and writes the 2000 x 64 result back as rows 2000 t … 2000 t + 1999 of the output. Entry (r, q) of the
  block's product is the sum over k of left(r, k) · right(k, q); row r of block t is row 2000 t + r of the array, so
  every block is the restriction of ONE function of the two arrays, `product`, and since the 50 blocks tile the 100000
  rows the output array ends holding `product` of the arrays as the region found them.
-/
import proofs.«173115_j73323681677457_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem
open Idealize.ShloMosaic.Pipeline (Dat Cfg Window)

/-! ## The whole-array product -/

/-- For the output entry `i = (r, q)` and the summation index `k`: the left operand's entry (r, k). -/
abbrev leftAt (i : S100000x64.Idx) (k : Fin 500) : S100000x500.Idx := fun a => match a with
  | ⟨0, _⟩ => ⟨(i 0).val, (i 0).isLt⟩
  | ⟨1, _⟩ => ⟨k.val, k.isLt⟩
/-- and the right operand's entry (k, q). -/
abbrev rightAt (i : S100000x64.Idx) (k : Fin 500) : S500x64.Idx := fun a => match a with
  | ⟨0, _⟩ => ⟨k.val, k.isLt⟩
  | ⟨1, _⟩ => ⟨(i 1).val, (i 1).isLt⟩

/-- The product of a 100000 x 500 array with a 500 x 64 one over the extended reals: entry (r, q) is the sum over k of
    X(r, k) · W(k, q). -/
def product (X : (⟨S100000x500, .f32⟩ : BufTy).Contents (Elt Ideal)) (W : (⟨S500x64, .f32⟩ : BufTy).Contents (Elt Ideal)) :
    (⟨S100000x64, .f32⟩ : BufTy).Contents (Elt Ideal) :=
  fun i => ∑ k : Fin 500, X (leftAt i k) * W (rightAt i k)

/-! ## One block's product at an entry -/

/-- The same two index functions inside a block: entry (r, k) of the 2000 x 500 block, -/
abbrev blockLeftAt (y : S2000x64.Idx) (k : Fin 500) : S2000x500.Idx := fun a => match a with
  | ⟨0, _⟩ => ⟨(y 0).val, (y 0).isLt⟩
  | ⟨1, _⟩ => ⟨k.val, k.isLt⟩
/-- and entry (k, q) of the right operand. -/
abbrev blockRightAt (y : S2000x64.Idx) (k : Fin 500) : S500x64.Idx := fun a => match a with
  | ⟨0, _⟩ => ⟨k.val, k.isLt⟩
  | ⟨1, _⟩ => ⟨(y 1).val, (y 1).isLt⟩

/-- The contraction's left index keeps the output's row, -/
theorem lhs_row (y : S2000x64.Idx) (q : dot_S2000x500_S500x64_S2000x64_1_0_0_1_n_n.contr.Idx) :
    (dot_S2000x500_S500x64_S2000x64_1_0_0_1_n_n.lhsIdx y q 0).val = (y 0).val := by
  unfold DotDims.lhsIdx
  rw [dif_neg (show ¬(0 : Fin S2000x500.rank) ∈ dot_S2000x500_S500x64_S2000x64_1_0_0_1_n_n.lhsBatch by decide), dif_pos (show (0 : Fin S2000x500.rank) ∈ dot_S2000x500_S500x64_S2000x64_1_0_0_1_n_n.lhsNonContracting by decide)]
  rfl
/-- takes its column from the summation index; -/
theorem lhs_col (y : S2000x64.Idx) (q : dot_S2000x500_S500x64_S2000x64_1_0_0_1_n_n.contr.Idx) :
    (dot_S2000x500_S500x64_S2000x64_1_0_0_1_n_n.lhsIdx y q 1).val = (q ⟨0, by decide⟩).val :=
  dot_S2000x500_S500x64_S2000x64_1_0_0_1_n_n.lhsIdx_val_of_single rfl y q
/-- the right index takes its row from the summation index -/
theorem rhs_row (y : S2000x64.Idx) (q : dot_S2000x500_S500x64_S2000x64_1_0_0_1_n_n.contr.Idx) :
    (dot_S2000x500_S500x64_S2000x64_1_0_0_1_n_n.rhsIdx y q 0).val = (q ⟨0, by decide⟩).val :=
  dot_S2000x500_S500x64_S2000x64_1_0_0_1_n_n.rhsIdx_val_of_single rfl y q
/-- and keeps the output's column. -/
theorem rhs_col (y : S2000x64.Idx) (q : dot_S2000x500_S500x64_S2000x64_1_0_0_1_n_n.contr.Idx) :
    (dot_S2000x500_S500x64_S2000x64_1_0_0_1_n_n.rhsIdx y q 1).val = (y 1).val := by
  unfold DotDims.rhsIdx
  rw [dif_neg (show ¬(1 : Fin S500x64.rank) ∈ dot_S2000x500_S500x64_S2000x64_1_0_0_1_n_n.rhsBatch by decide), dif_pos (show (1 : Fin S500x64.rank) ∈ dot_S2000x500_S500x64_S2000x64_1_0_0_1_n_n.rhsNonContracting by decide)]
  rfl

/-- What the body stores, at an entry of the block: the sum over k of the loaded left block's (r, k) times the loaded
    right operand's (k, q). The narrowing to bf16 before the product is the identity on extended reals, and the
    accumulator is the zero block. -/
theorem payload_apply (x0 : Vec Ideal S2000x500 .f32) (x1 : Vec Ideal S500x64 .f32) (y : S2000x64.Idx) :
    k0_pay1 x0 x1 y = ∑ k : Fin 500, x0 (blockLeftAt y k) * x1 (blockRightAt y k) := by
  unfold k0_pay1
  show FloatOps.matmul dot_S2000x500_S500x64_S2000x64_1_0_0_1_n_n none (@truncf Ideal _ S2000x500 FTy.f32 FTy.bf16 x0 _) (@truncf Ideal _ S500x64 FTy.f32 FTy.bf16 x1 _) (constant S2000x64 .f32 0x00000000#32) y = _
  rw [Ideal.matmul_constant_zero_apply, ← Equiv.sum_comp (ValueIdx.contrEquiv1 dot_S2000x500_S500x64_S2000x64_1_0_0_1_n_n 500 rfl rfl).symm]
  refine Finset.sum_congr rfl fun k _ => ?_
  have hk := ValueIdx.contrEquiv1_symm_val dot_S2000x500_S500x64_S2000x64_1_0_0_1_n_n 500 rfl rfl k
  have el : dot_S2000x500_S500x64_S2000x64_1_0_0_1_n_n.lhsIdx y ((ValueIdx.contrEquiv1 dot_S2000x500_S500x64_S2000x64_1_0_0_1_n_n 500 rfl rfl).symm k) = blockLeftAt y k := funext fun a => Fin.ext (by
    match a with
    | ⟨0, _⟩ => exact lhs_row _ _
    | ⟨1, _⟩ => exact (lhs_col _ _).trans hk)
  have er : dot_S2000x500_S500x64_S2000x64_1_0_0_1_n_n.rhsIdx y ((ValueIdx.contrEquiv1 dot_S2000x500_S500x64_S2000x64_1_0_0_1_n_n 500 rfl rfl).symm k) = blockRightAt y k := funext fun a => Fin.ext (by
    match a with
    | ⟨0, _⟩ => exact (rhs_row _ _).trans hk
    | ⟨1, _⟩ => exact rhs_col _ _)
  rw [el, er] <;> rfl

/-- A block's stored entry is the whole-array product's entry `i`, as soon as the loaded blocks agree with the arrays on
    the row and the column that entry sums over. -/
theorem payload_eq_product (X : (⟨S100000x500, .f32⟩ : BufTy).Contents (Elt Ideal)) (W : (⟨S500x64, .f32⟩ : BufTy).Contents (Elt Ideal))
    (x0 : Vec Ideal S2000x500 .f32) (x1 : Vec Ideal S500x64 .f32) (y : S2000x64.Idx) (i : S100000x64.Idx)
    (h0 : ∀ k : Fin 500, x0 (blockLeftAt y k) = X (leftAt i k)) (h1 : ∀ k : Fin 500, x1 (blockRightAt y k) = W (rightAt i k)) :
    k0_pay1 x0 x1 y = product X W i := by
  rw [payload_apply]
  unfold product
  exact Finset.sum_congr rfl fun k _ => by rw [h0 k, h1 k]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the 50 grid points: the left operand's block and the output's block are block
    `t` of rows and the only block of columns; the right operand is fetched whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S2000x500) origin, View.ld_unit_zero (S := S500x64) origin]
  obtain ⟨e0, e1, e2, e3, e4, e5⟩ := block_indices t
  funext y
  refine payload_eq_product (V c main_arg0) (V c main_arg2) (iblk0 V c 0 t) (iblk0 V c 1 t) y (((cfg0.win 2).blk t).view.emb y) (fun k => ?_) (fun k => ?_)
  · show V c main_arg0 (((cfg0.win 0).blk t).view.emb (blockLeftAt y k)) = V c main_arg0 (leftAt (((cfg0.win 2).blk t).view.emb y) k)
    refine congrArg (V c main_arg0) (funext fun a => Fin.ext ?_)
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 500 + 1 * k.val = k.val; omega
  · show V c main_arg2 (((cfg0.win 1).blk t).view.emb (blockRightAt y k)) = V c main_arg2 (rightAt (((cfg0.win 2).blk t).view.emb y) k)
    refine congrArg (V c main_arg2) (funext fun a => Fin.ext ?_)
    match a with
    | ⟨0, _⟩ => show win0_1.index t (0 : Fin 2) * 500 + 1 * k.val = k.val; omega
    | ⟨1, _⟩ => show win0_1.index t (1 : Fin 2) * 64 + 1 * (y 1).val = win0_2.index t (1 : Fin 2) * 64 + 1 * (y 1).val; omega

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- The blocks tile the array: row r lies in the block of point r / 2000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 50 := N_0
  have ht : (i 0).val / 2000 < cfg0.N := by show (i 0).val / 2000 < grid0.N; omega
  obtain ⟨e0, e1, e2, e3, e4, e5⟩ := block_indices ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_block]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 64 ≤ (i 1).val ∧ (i 1).val < win0_2.index ⟨(i 0).val / 2000, ht⟩ (1 : Fin 2) * 64 + 64; omega

/-- THE ARRAY after the region: the product of the two arrays the region found. -/
theorem final (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.Layer1

end
-- ==== Proof.Layer2.lean ====
/-
  Layer 2's dense transform, read off the second pipelined region. The region walks the 100000 rows of its left operand
  (layer 1's activations) in 20 blocks of 5000 rows; at a block it multiplies the 5000 x 64 block by the whole 64 x 3
  right operand (the reshape of the block to its own shape and the change of float format before the product are the
  identity on extended reals; the product accumulates into a zero block) and writes the 5000 x 3 result back as rows
  5000 t … 5000 t + 4999 of the output. Entry (r, q) of a block's product is the sum over k of left(r, k) · right(k, q), and
  row r of block t is row 5000 t + r of the array: every block is the restriction of ONE function of the two arrays,
  `product`, and the 20 blocks tile the 100000 rows, so the output array ends holding `product` of the arrays as the
  region found them.
-/
import proofs.«173115_j73323681677457_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem
open Idealize.ShloMosaic.Pipeline (Dat Cfg Window)

/-! ## The whole-array product -/

/-- For the output entry `i = (r, q)` and the summation index `k`: the activations' entry (r, k). -/
abbrev leftAt (i : S100000x3.Idx) (k : Fin 64) : S100000x64.Idx := fun a => match a with
  | ⟨0, _⟩ => ⟨(i 0).val, (i 0).isLt⟩
  | ⟨1, _⟩ => ⟨k.val, k.isLt⟩
/-- and the weights' entry (k, q). -/
abbrev rightAt (i : S100000x3.Idx) (k : Fin 64) : S64x3.Idx := fun a => match a with
  | ⟨0, _⟩ => ⟨k.val, k.isLt⟩
  | ⟨1, _⟩ => ⟨(i 1).val, (i 1).isLt⟩

/-- The product of a 100000 x 64 array with a 64 x 3 one over the extended reals: entry (r, q) is the sum over k of
    H(r, k) · W(k, q). -/
def product (H : (⟨S100000x64, .f32⟩ : BufTy).Contents (Elt Ideal)) (W : (⟨S64x3, .f32⟩ : BufTy).Contents (Elt Ideal)) :
    (⟨S100000x3, .f32⟩ : BufTy).Contents (Elt Ideal) :=
  fun i => ∑ k : Fin 64, H (leftAt i k) * W (rightAt i k)

/-! ## One block's product at an entry -/

/-- Inside a block: entry (r, k) of the 5000 x 64 block, -/
abbrev blockLeftAt (y : S5000x3.Idx) (k : Fin 64) : S5000x64.Idx := fun a => match a with
  | ⟨0, _⟩ => ⟨(y 0).val, (y 0).isLt⟩
  | ⟨1, _⟩ => ⟨k.val, k.isLt⟩
/-- and entry (k, q) of the weights. -/
abbrev blockRightAt (y : S5000x3.Idx) (k : Fin 64) : S64x3.Idx := fun a => match a with
  | ⟨0, _⟩ => ⟨k.val, k.isLt⟩
  | ⟨1, _⟩ => ⟨(y 1).val, (y 1).isLt⟩

/-- The contraction's left index keeps the output's row, -/
theorem lhs_row (y : S5000x3.Idx) (q : dot_S5000x64_S64x3_S5000x3_1_0_0_1_n_n.contr.Idx) :
    (dot_S5000x64_S64x3_S5000x3_1_0_0_1_n_n.lhsIdx y q 0).val = (y 0).val := by
  unfold DotDims.lhsIdx
  rw [dif_neg (show ¬(0 : Fin S5000x64.rank) ∈ dot_S5000x64_S64x3_S5000x3_1_0_0_1_n_n.lhsBatch by decide), dif_pos (show (0 : Fin S5000x64.rank) ∈ dot_S5000x64_S64x3_S5000x3_1_0_0_1_n_n.lhsNonContracting by decide)]
  rfl
/-- takes its column from the summation index; -/
theorem lhs_col (y : S5000x3.Idx) (q : dot_S5000x64_S64x3_S5000x3_1_0_0_1_n_n.contr.Idx) :
    (dot_S5000x64_S64x3_S5000x3_1_0_0_1_n_n.lhsIdx y q 1).val = (q ⟨0, by decide⟩).val :=
  dot_S5000x64_S64x3_S5000x3_1_0_0_1_n_n.lhsIdx_val_of_single rfl y q
/-- the right index takes its row from the summation index -/
theorem rhs_row (y : S5000x3.Idx) (q : dot_S5000x64_S64x3_S5000x3_1_0_0_1_n_n.contr.Idx) :
    (dot_S5000x64_S64x3_S5000x3_1_0_0_1_n_n.rhsIdx y q 0).val = (q ⟨0, by decide⟩).val :=
  dot_S5000x64_S64x3_S5000x3_1_0_0_1_n_n.rhsIdx_val_of_single rfl y q
/-- and keeps the output's column. -/
theorem rhs_col (y : S5000x3.Idx) (q : dot_S5000x64_S64x3_S5000x3_1_0_0_1_n_n.contr.Idx) :
    (dot_S5000x64_S64x3_S5000x3_1_0_0_1_n_n.rhsIdx y q 1).val = (y 1).val := by
  unfold DotDims.rhsIdx
  rw [dif_neg (show ¬(1 : Fin S64x3.rank) ∈ dot_S5000x64_S64x3_S5000x3_1_0_0_1_n_n.rhsBatch by decide), dif_pos (show (1 : Fin S64x3.rank) ∈ dot_S5000x64_S64x3_S5000x3_1_0_0_1_n_n.rhsNonContracting by decide)]
  rfl

/-- What the body stores, at an entry of the block: the sum over k of the loaded activations' (r, k) times the loaded
    weights' (k, q). The reshape of the block to its own shape and the narrowing to bf16 before the product are the
    identity on extended reals, and the accumulator is the zero block. -/
theorem payload_apply (x0 : Vec Ideal S5000x64 .f32) (x1 : Vec Ideal S64x3 .f32) (y : S5000x3.Idx) :
    k1_pay1 x0 x1 y = ∑ k : Fin 64, x0 (blockLeftAt y k) * x1 (blockRightAt y k) := by
  unfold k1_pay1
  show FloatOps.matmul dot_S5000x64_S64x3_S5000x3_1_0_0_1_n_n none (@truncf Ideal _ S5000x64 FTy.f32 FTy.bf16 (shapeCast S5000x64 (x0 : FVec Ideal S5000x64 .f32) _) _) (@truncf Ideal _ S64x3 FTy.f32 FTy.bf16 x1 _) (constant S5000x3 .f32 0x00000000#32) y = _
  rw [shapeCast_self, Ideal.matmul_constant_zero_apply, ← Equiv.sum_comp (ValueIdx.contrEquiv1 dot_S5000x64_S64x3_S5000x3_1_0_0_1_n_n 64 rfl rfl).symm]
  refine Finset.sum_congr rfl fun k _ => ?_
  have hk := ValueIdx.contrEquiv1_symm_val dot_S5000x64_S64x3_S5000x3_1_0_0_1_n_n 64 rfl rfl k
  have el : dot_S5000x64_S64x3_S5000x3_1_0_0_1_n_n.lhsIdx y ((ValueIdx.contrEquiv1 dot_S5000x64_S64x3_S5000x3_1_0_0_1_n_n 64 rfl rfl).symm k) = blockLeftAt y k := funext fun a => Fin.ext (by
    match a with
    | ⟨0, _⟩ => exact lhs_row _ _
    | ⟨1, _⟩ => exact (lhs_col _ _).trans hk)
  have er : dot_S5000x64_S64x3_S5000x3_1_0_0_1_n_n.rhsIdx y ((ValueIdx.contrEquiv1 dot_S5000x64_S64x3_S5000x3_1_0_0_1_n_n 64 rfl rfl).symm k) = blockRightAt y k := funext fun a => Fin.ext (by
    match a with
    | ⟨0, _⟩ => exact (rhs_row _ _).trans hk
    | ⟨1, _⟩ => exact rhs_col _ _)
  rw [el, er] <;> rfl

/-- A block's stored entry is the whole-array product's entry `i`, as soon as the loaded blocks agree with the arrays on
    the row and the column that entry sums over. -/
theorem payload_eq_product (H : (⟨S100000x64, .f32⟩ : BufTy).Contents (Elt Ideal)) (W : (⟨S64x3, .f32⟩ : BufTy).Contents (Elt Ideal))
    (x0 : Vec Ideal S5000x64 .f32) (x1 : Vec Ideal S64x3 .f32) (y : S5000x3.Idx) (i : S100000x3.Idx)
    (h0 : ∀ k : Fin 64, x0 (blockLeftAt y k) = H (leftAt i k)) (h1 : ∀ k : Fin 64, x1 (blockRightAt y k) = W (rightAt i k)) :
    k1_pay1 x0 x1 y = product H W i := by
  rw [payload_apply]
  unfold product
  exact Finset.sum_congr rfl fun k _ => by rw [h0 k, h1 k]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the 20 grid points: the activations' block and the output's block are block
    `t` of rows and the only block of columns; the weights are fetched whole. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays as the region finds them. -/
theorem flushed_eq (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x3) origin]
  obtain ⟨e0, e1, e2, e3, e4, e5⟩ := block_indices t
  funext y
  refine payload_eq_product (V c main_v47) (V c main_arg4) (iblk1 V c 0 t) (iblk1 V c 1 t) y (((cfg1.win 2).blk t).view.emb y) (fun k => ?_) (fun k => ?_)
  · show V c main_v47 (((cfg1.win 0).blk t).view.emb (blockLeftAt y k)) = V c main_v47 (leftAt (((cfg1.win 2).blk t).view.emb y) k)
    refine congrArg (V c main_v47) (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 64 + 1 * k.val = k.val; omega
  · show V c main_arg4 (((cfg1.win 1).blk t).view.emb (blockRightAt y k)) = V c main_arg4 (rightAt (((cfg1.win 2).blk t).view.emb y) k)
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 3 + 1 * (y 1).val = win1_2.index t (1 : Fin 2) * 3 + 1 * (y 1).val; omega

/-- An index of the output array is in point `t`'s block iff each coordinate is in the block's range on its axis. -/
theorem mem_block (t : Fin cfg1.N) (i : S100000x3.Idx) :
    i ∈ ((cfg1.win 2).blk t).view.set ↔ ∀ a : Fin 2, win1_2.index t a * S5000x3.size a ≤ (i a).val ∧ (i a).val < win1_2.index t a * S5000x3.size a + S5000x3.size a := by
  show i ∈ ((View.whole main_v48).slice (win1_2.rect t)).set ↔ _
  rw [View.set_slice_whole, Rect.mem_set_unit]
  exact Iff.rfl

/-- The blocks tile the array: row r lies in the block of point r / 5000. -/
theorem cover (i : S100000x3.Idx) : ∃ t : Fin cfg1.N, (cfg1.win 2).flush t = true ∧ i ∈ ((cfg1.win 2).blk t).view.set := by
  have hi0 : (i 0).val < 100000 := (i 0).isLt
  have hi1 : (i 1).val < 3 := (i 1).isLt
  have hN : grid1.N = 20 := N_1
  have ht : (i 0).val / 5000 < cfg1.N := by show (i 0).val / 5000 < grid1.N; omega
  obtain ⟨e0, e1, e2, e3, e4, e5⟩ := block_indices ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_block]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 3 ≤ (i 1).val ∧ (i 1).val < win1_2.index ⟨(i 0).val / 5000, ht⟩ (1 : Fin 2) * 3 + 3; omega

/-- THE ARRAY after the region: the product of the two arrays the region found. -/
theorem final (c : Dev nD) : (dat1 V c).arrAt 2 cfg1.N = product (V c main_v47) (V c main_arg4) :=
  (dat1 V c).arrAt_eq_of_cover 2 (product (V c main_v47) (V c main_arg4)) (fun t _ => flushed_eq V c t) cover

end Cert.KernelIdeal.Layer2

end
-- ==== Proof.Chain.lean ====
/-
  The host operations the kernel program and the reference share, named once, for any float family.
  From the 2 x 1600000 edge array: the source and destination index lists with one self loop per node appended
  (`srcIdx`, `dstIdx`); an index list with its negative entries wrapped by the node count, as a column (`wrapCol`: the
  form a gather takes its row indices in); the degree of every node, counted at destinations (`degree`: a scatter-add of
  ones); its inverse square root, zero where the degree is not positive (`invSqrt`); and the weight of an edge, the
  product of the two endpoints' inverse square roots (`edgeWeight`). From a feature array h: the rows of h gathered by
  source, scaled by the edge weight and added up by destination (`propagate64`, `propagate3`: 64 and 3 columns), and the
  two layers' tails: `layer1` adds the bias and clamps at zero, `layer2` adds the bias.
-/
import proofs.«173115_j73323681677457_1_alg».proof.Proof.Gen.KernelIdeal

noncomputable section

namespace Cert.KernelIdeal.Chain

open Cert.KernelIdeal Cert.KernelIdeal.Facts₀ Cert.KernelIdeal.Facts
open Idealize.ShloMosaic Idealize.SL.Sem

variable {F : FTy → Type} [FloatOps F]

/-- Row 0 of the edge array, then the nodes 0 … 99999: every edge's source, and each node as its own source. -/
def srcIdx (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Row 1 of the edge array, then the nodes 0 … 99999: every edge's destination, and each node as its own. -/
def dstIdx (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An index list with every negative entry raised by the node count, as a one-column array. -/
def wrapCol (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- How many list entries point at each node: ones added up by destination, from zero. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- 1 / sqrt(degree) where the degree is positive, zero elsewhere. -/
def invSqrt (deg : (⟨S100000, .f32⟩ : BufTy).Contents (Elt F)) : (⟨S100000, .f32⟩ : BufTy).Contents (Elt F) :=
  select (cmpf (F := F) .ogt deg (broadcastInDim S100000 ![] bcast_S_S100000 (constant (F := F) S_ .f32 0x00000000#32)))
    (Host.rsqrt deg)
    (broadcastInDim S100000 ![] bcast_S_S100000 (id (constant (F := F) S_ .f32 0x00000000#32)))

/-- An edge's weight: the inverse square roots of its source's and its destination's degrees, multiplied. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrt (degree d)) (wrapCol s))
    (Host.gather gather_S100000_S1700000x1_S1700000_n_0_n_n_0_1_1 (invSqrt (degree d)) (wrapCol d))

/-- The rows of a 64-column feature array gathered by source, scaled by the edge weight, added up by destination. -/
def propagate64 (h : (⟨S100000x64, .f32⟩ : BufTy).Contents (Elt F)) (s d : (⟨S1700000, .i32⟩ : BufTy).Contents (Elt F)) (w : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf (Host.gather gather_S100000x64_S1700000x1_S1700000x64_1_0_n_n_0_1_164 h (wrapCol s))
      (broadcastInDim S1700000x64 ![0, 1] bcast_S1700000x1_S1700000x64_0_1 (broadcastInDim S1700000x1 ![0] bcast_S1700000_S1700000x1_0 w)))

/-- Layer 1 after its dense transform h: propagate, add the bias to every row, clamp at zero. -/
def layer1 (h : (⟨S100000x64, .f32⟩ : BufTy).Contents (Elt F)) (s d : (⟨S1700000, .i32⟩ : BufTy).Contents (Elt F)) (w : (⟨S1700000, .f32⟩ : BufTy).Contents (Elt F)) (b : (⟨S64, .f32⟩ : BufTy).Contents (Elt F)) : (⟨S100000x64, .f32⟩ : BufTy).Contents (Elt F) :=
  maximumf (addf (propagate64 h s d w) (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- The same propagation for a 3-column feature array. -/
def propagate3 (h : (⟨S100000x3, .f32⟩ : BufTy).Contents (Elt F)) (s d : (⟨S1700000, .i32⟩ : BufTy).Contents (Elt F)) (w : (⟨S1700000, .f32⟩ : BufTy).Contents (Elt F)) : (⟨S100000x3, .f32⟩ : BufTy).Contents (Elt F) :=
  Host.scatterAdd scatter_S100000x3_S1700000x1_S1700000x3_1_0_0_1
    (broadcastInDim S100000x3 ![] bcast_S_S100000x3 (constant (F := F) S_ .f32 0x00000000#32))
    (broadcastInDim S1700000x1 ![0] bcast_S1700000_S1700000x1_0 d)
    (mulf (Host.gather gather_S100000x3_S1700000x1_S1700000x3_1_0_n_n_0_1_13 h (wrapCol s))
      (broadcastInDim S1700000x3 ![0, 1] bcast_S1700000x1_S1700000x3_0_1 (broadcastInDim S1700000x1 ![0] bcast_S1700000_S1700000x1_0 w)))

/-- Layer 2 after its dense transform h: propagate and add the bias to every row. -/
def layer2 (h : (⟨S100000x3, .f32⟩ : BufTy).Contents (Elt F)) (s d : (⟨S1700000, .i32⟩ : BufTy).Contents (Elt F)) (w : (⟨S1700000, .f32⟩ : BufTy).Contents (Elt F)) (b : (⟨S3, .f32⟩ : BufTy).Contents (Elt F)) : (⟨S100000x3, .f32⟩ : BufTy).Contents (Elt F) :=
  addf (propagate3 h s d w) (broadcastInDim S100000x3 ![0, 1] bcast_S1x3_S100000x3_0_1 (broadcastInDim S1x3 ![1] bcast_S3_S1x3_1 b))

end Cert.KernelIdeal.Chain

end
-- ==== Proof.KHost0.lean ====
/-
  The first stretches of host operations of the kernel program (everything before the first pipelined region), read from
  ANY contents `Wv` of the buffers they start from and for any float family: they leave the source and destination
  index lists and the edge weight of the edge array they find, and they write none of the argument arrays.
-/
import proofs.«173115_j73323681677457_1_alg».proof.Proof.Gen.KernelIdeal.Launch
import proofs.«173115_j73323681677457_1_alg».proof.Proof.Chain
import Idealize.ShloMosaic.Lib.StableHlo.Run

set_option maxRecDepth 16384

noncomputable section

namespace Cert.KernelIdeal.KHost0

open Cert.KernelIdeal Cert.KernelIdeal.Gen Cert.KernelIdeal.Chain
open Idealize.ShloMosaic Idealize.ShloMosaic.TcCoe Idealize.SL.Sem Idealize.ShloMosaic.StableHlo

variable {F : FTy → Type} [FloatOps F] (Wv : Valuation τ sig (Elt F))

set_option maxHeartbeats 4000000 in
/-- The source index list of the edge array found. -/
theorem src_of : StableHlo.after hostOps0_2 (StableHlo.after hostOps0_1 (StableHlo.after hostOps0 Wv)) (Proc.devRef .tc main_v5) = srcIdx (Wv (Proc.devRef .tc main_arg1)) := by
  dsimp only [hostOps0, hostOps0_1, hostOps0_2]
  after_results
  rfl

set_option maxHeartbeats 4000000 in
/-- The destination index list of the edge array found. -/
theorem dst_of : StableHlo.after hostOps0_2 (StableHlo.after hostOps0_1 (StableHlo.after hostOps0 Wv)) (Proc.devRef .tc main_v6) = dstIdx (Wv (Proc.devRef .tc main_arg1)) := by
  dsimp only [hostOps0, hostOps0_1, hostOps0_2]
  after_results
  rfl

set_option maxHeartbeats 4000000 in
theorem arg0_of : StableHlo.after hostOps0_2 (StableHlo.after hostOps0_1 (StableHlo.after hostOps0 Wv)) (Proc.devRef .tc main_arg0) = Wv (Proc.devRef .tc main_arg0) := by
  dsimp only [hostOps0, hostOps0_1, hostOps0_2]
  after_results
set_option maxHeartbeats 4000000 in
theorem arg2_of : StableHlo.after hostOps0_2 (StableHlo.after hostOps0_1 (StableHlo.after hostOps0 Wv)) (Proc.devRef .tc main_arg2) = Wv (Proc.devRef .tc main_arg2) := by
  dsimp only [hostOps0, hostOps0_1, hostOps0_2]
  after_results
set_option maxHeartbeats 4000000 in
theorem arg3_of : StableHlo.after hostOps0_2 (StableHlo.after hostOps0_1 (StableHlo.after hostOps0 Wv)) (Proc.devRef .tc main_arg3) = Wv (Proc.devRef .tc main_arg3) := by
  dsimp only [hostOps0, hostOps0_1, hostOps0_2]
  after_results
set_option maxHeartbeats 4000000 in
theorem arg4_of : StableHlo.after hostOps0_2 (StableHlo.after hostOps0_1 (StableHlo.after hostOps0 Wv)) (Proc.devRef .tc main_arg4) = Wv (Proc.devRef .tc main_arg4) := by
  dsimp only [hostOps0, hostOps0_1, hostOps0_2]
  after_results
set_option maxHeartbeats 4000000 in
theorem arg5_of : StableHlo.after hostOps0_2 (StableHlo.after hostOps0_1 (StableHlo.after hostOps0 Wv)) (Proc.devRef .tc main_arg5) = Wv (Proc.devRef .tc main_arg5) := by
  dsimp only [hostOps0, hostOps0_1, hostOps0_2]
  after_results

end Cert.KernelIdeal.KHost0

end
-- ==== Proof.KHost0w.lean ====
/-
  The edge weight the kernel program's first stretches of host operations leave, read from ANY contents `Wv` of the
  buffers they start from and for any float family: the product, edge by edge, of the inverse square roots of the
  degrees of the edge's two endpoints, the degrees counted at destinations over the list with self loops.
-/
import proofs.«173115_j73323681677457_1_alg».proof.Proof.Gen.KernelIdeal.Launch
import proofs.«173115_j73323681677457_1_alg».proof.Proof.Chain
import Idealize.ShloMosaic.Lib.StableHlo.Run

set_option maxRecDepth 16384

noncomputable section

namespace Cert.KernelIdeal.KHost0w

open Cert.KernelIdeal Cert.KernelIdeal.Gen Cert.KernelIdeal.Chain
open Idealize.ShloMosaic Idealize.ShloMosaic.TcCoe Idealize.SL.Sem Idealize.ShloMosaic.StableHlo

variable {F : FTy → Type} [FloatOps F] (Wv : Valuation τ sig (Elt F))

set_option maxHeartbeats 16000000 in
/-- The edge weight of the edge array found. -/
theorem weight_of : StableHlo.after hostOps0_2 (StableHlo.after hostOps0_1 (StableHlo.after hostOps0 Wv)) (Proc.devRef .tc main_v29)
    = edgeWeight (srcIdx (Wv (Proc.devRef .tc main_arg1))) (dstIdx (Wv (Proc.devRef .tc main_arg1))) := by
  dsimp only [hostOps0, hostOps0_1, hostOps0_2]
  after_results
  rfl

end Cert.KernelIdeal.KHost0w

end
-- ==== Proof.KHost1.lean ====
/-
  The stretches of host operations between the two pipelined regions, read from ANY contents `Wv` of the buffers they
  start from and for any float family: they leave layer 1's activations — the tail of layer 1 applied to the dense
  transform, the index lists, the edge weight and the bias they find — and write none of the buffers the later stretches
  still read.
-/
import proofs.«173115_j73323681677457_1_alg».proof.Proof.Gen.KernelIdeal.Launch
import proofs.«173115_j73323681677457_1_alg».proof.Proof.Chain
import Idealize.ShloMosaic.Lib.StableHlo.Run

set_option maxRecDepth 16384

noncomputable section

namespace Cert.KernelIdeal.KHost1

open Cert.KernelIdeal Cert.KernelIdeal.Gen Cert.KernelIdeal.Chain
open Idealize.ShloMosaic Idealize.ShloMosaic.TcCoe Idealize.SL.Sem Idealize.ShloMosaic.StableHlo

variable {F : FTy → Type} [FloatOps F] (Wv : Valuation τ sig (Elt F))

set_option maxHeartbeats 16000000 in
/-- Layer 1's activations from what the stretches find. -/
theorem act_of : StableHlo.after hostOps1_1 (StableHlo.after hostOps1 Wv) (Proc.devRef .tc main_v47)
    = layer1 (Wv (Proc.devRef .tc main_v30)) (Wv (Proc.devRef .tc main_v5)) (Wv (Proc.devRef .tc main_v6)) (Wv (Proc.devRef .tc main_v29)) (Wv (Proc.devRef .tc main_arg3)) := by
  dsimp only [hostOps1, hostOps1_1]
  after_results
  rfl

set_option maxHeartbeats 4000000 in
theorem src_of : StableHlo.after hostOps1_1 (StableHlo.after hostOps1 Wv) (Proc.devRef .tc main_v5) = Wv (Proc.devRef .tc main_v5) := by
  dsimp only [hostOps1, hostOps1_1]
  after_results
set_option maxHeartbeats 4000000 in
theorem dst_of : StableHlo.after hostOps1_1 (StableHlo.after hostOps1 Wv) (Proc.devRef .tc main_v6) = Wv (Proc.devRef .tc main_v6) := by
  dsimp only [hostOps1, hostOps1_1]
  after_results
set_option maxHeartbeats 4000000 in
theorem weight_of : StableHlo.after hostOps1_1 (StableHlo.after hostOps1 Wv) (Proc.devRef .tc main_v29) = Wv (Proc.devRef .tc main_v29) := by
  dsimp only [hostOps1, hostOps1_1]
  after_results
set_option maxHeartbeats 4000000 in
theorem arg4_of : StableHlo.after hostOps1_1 (StableHlo.after hostOps1 Wv) (Proc.devRef .tc main_arg4) = Wv (Proc.devRef .tc main_arg4) := by
  dsimp only [hostOps1, hostOps1_1]
  after_results
set_option maxHeartbeats 4000000 in
theorem arg5_of : StableHlo.after hostOps1_1 (StableHlo.after hostOps1 Wv) (Proc.devRef .tc main_arg5) = Wv (Proc.devRef .tc main_arg5) := by
  dsimp only [hostOps1, hostOps1_1]
  after_results

end Cert.KernelIdeal.KHost1

end
-- ==== Proof.KHost2.lean ====
/-
  The last stretch of host operations, read from ANY contents `Wv` of the buffers it starts from and for any float family:
  it leaves in the result array the tail of layer 2 applied to the dense transform, the index lists, the edge weight and
  the bias it finds.
-/
import proofs.«173115_j73323681677457_1_alg».proof.Proof.Gen.KernelIdeal.Launch
import proofs.«173115_j73323681677457_1_alg».proof.Proof.Chain
import Idealize.ShloMosaic.Lib.StableHlo.Run

set_option maxRecDepth 16384

noncomputable section

namespace Cert.KernelIdeal.KHost2

open Cert.KernelIdeal Cert.KernelIdeal.Gen Cert.KernelIdeal.Chain
open Idealize.ShloMosaic Idealize.ShloMosaic.TcCoe Idealize.SL.Sem Idealize.ShloMosaic.StableHlo

variable {F : FTy → Type} [FloatOps F] (Wv : Valuation τ sig (Elt F))

set_option maxHeartbeats 16000000 in
/-- The result from what the stretch finds. -/
theorem result_of : StableHlo.after hostOps2 Wv (Proc.devRef .tc main_v64)
    = layer2 (Wv (Proc.devRef .tc main_v48)) (Wv (Proc.devRef .tc main_v5)) (Wv (Proc.devRef .tc main_v6)) (Wv (Proc.devRef .tc main_v29)) (Wv (Proc.devRef .tc main_arg5)) := by
  dsimp only [hostOps2]
  after_results
  rfl

end Cert.KernelIdeal.KHost2

end
-- ==== Proof.RefChain.lean ====
/-
  The reference's stages are the shared chain's functions, for any float family. The reference builds the index lists
  and the edge weight twice (once per layer) by the same operations of the same edge array, so both copies are the same
  functions of it; its layer-1 activations are layer 1's tail of its own dense transform, and its result is layer 2's
  tail of its second dense transform. Each equation only unfolds definitions: the operations are the same, one by one.
-/
import proofs.«173115_j73323681677457_1_alg».proof.Proof.RefRead
import proofs.«173115_j73323681677457_1_alg».proof.Proof.Chain

set_option maxRecDepth 16384

noncomputable section

namespace Cert.ReferenceIdeal.RefChain

open Cert.ReferenceIdeal.ReadP Cert.KernelIdeal.Chain
open Idealize.ShloMosaic Idealize.SL.Sem

variable {F : FTy → Type} [FloatOps F]

/-- Layer 1's source list … -/
theorem src_eq (e : (⟨Cert.ReferenceIdeal.S2x1600000, .i32⟩ : BufTy).Contents (Elt F)) : val_main_v5 (F := F) e = srcIdx e := rfl
/-- … and layer 2's copy of it. -/
theorem src_eq' (e : (⟨Cert.ReferenceIdeal.S2x1600000, .i32⟩ : BufTy).Contents (Elt F)) : val_main_v49 (F := F) e = srcIdx e := rfl
/-- Layer 1's destination list … -/
theorem dst_eq (e : (⟨Cert.ReferenceIdeal.S2x1600000, .i32⟩ : BufTy).Contents (Elt F)) : val_main_v6 (F := F) e = dstIdx e := rfl
/-- … and layer 2's copy of it. -/
theorem dst_eq' (e : (⟨Cert.ReferenceIdeal.S2x1600000, .i32⟩ : BufTy).Contents (Elt F)) : val_main_v50 (F := F) e = dstIdx e := rfl

set_option maxHeartbeats 4000000 in
/-- Layer 1's edge weight … -/
theorem weight_eq (e : (⟨Cert.ReferenceIdeal.S2x1600000, .i32⟩ : BufTy).Contents (Elt F)) : val_main_v29 (F := F) e = edgeWeight (srcIdx e) (dstIdx e) := rfl
set_option maxHeartbeats 4000000 in
/-- … and layer 2's copy of it. -/
theorem weight_eq' (e : (⟨Cert.ReferenceIdeal.S2x1600000, .i32⟩ : BufTy).Contents (Elt F)) : val_main_v73 (F := F) e = edgeWeight (srcIdx e) (dstIdx e) := rfl

set_option maxHeartbeats 4000000 in
/-- The activations: layer 1's tail of the reference's first dot product. -/
theorem act_eq (x0 : (⟨Cert.ReferenceIdeal.S100000x500, .f32⟩ : BufTy).Contents (Elt F)) (e : (⟨Cert.ReferenceIdeal.S2x1600000, .i32⟩ : BufTy).Contents (Elt F)) (x2 : (⟨Cert.ReferenceIdeal.S500x64, .f32⟩ : BufTy).Contents (Elt F)) (x3 : (⟨Cert.ReferenceIdeal.S64, .f32⟩ : BufTy).Contents (Elt F)) :
    val_main_v47 (F := F) x0 e x2 x3 = layer1 (val_main_v30 (F := F) x0 x2) (srcIdx e) (dstIdx e) (edgeWeight (srcIdx e) (dstIdx e)) x3 := rfl

set_option maxHeartbeats 4000000 in
/-- The result: layer 2's tail of the reference's second dot product. -/
theorem result_eq (x0 : (⟨Cert.ReferenceIdeal.S100000x500, .f32⟩ : BufTy).Contents (Elt F)) (e : (⟨Cert.ReferenceIdeal.S2x1600000, .i32⟩ : BufTy).Contents (Elt F)) (x2 : (⟨Cert.ReferenceIdeal.S500x64, .f32⟩ : BufTy).Contents (Elt F)) (x3 : (⟨Cert.ReferenceIdeal.S64, .f32⟩ : BufTy).Contents (Elt F))
    (x4 : (⟨Cert.ReferenceIdeal.S64x3, .f32⟩ : BufTy).Contents (Elt F)) (x5 : (⟨Cert.ReferenceIdeal.S3, .f32⟩ : BufTy).Contents (Elt F)) :
    val_main_v90 (F := F) x0 e x2 x3 x4 x5 = layer2 (val_main_v74 (F := F) x0 e x2 x3 x4) (srcIdx e) (dstIdx e) (edgeWeight (srcIdx e) (dstIdx e)) x5 := rfl

end Cert.ReferenceIdeal.RefChain

end
-- ==== Proof.KValue.lean ====
/-
  What the idealized kernel program leaves in its result array, boundary by boundary, over the extended reals.
  Before the first region the buffers hold the index lists and the edge weight of the edge array (Proof/KHost0.lean,
  Proof/KHost0w.lean) and the arguments are untouched. The first region leaves the product of x and W1 (Proof/Layer1.lean),
  which is the reference's dot product entry by entry: the same sum over the contracted axis. The middle stretches leave
  layer 1's tail of that product (Proof/KHost1.lean), which is the reference's activations stage (Proof/RefChain.lean). The
  second region leaves the product of the activations and W2 (Proof/Layer2.lean), again the reference's dot product; and the
  last stretch leaves layer 2's tail of it (Proof/KHost2.lean), the reference's result stage.
-/
import proofs.«173115_j73323681677457_1_alg».proof.Proof.Gen.KernelIdeal.Frame
import proofs.«173115_j73323681677457_1_alg».proof.Proof.Layer1
import proofs.«173115_j73323681677457_1_alg».proof.Proof.Layer2
import proofs.«173115_j73323681677457_1_alg».proof.Proof.KHost0
import proofs.«173115_j73323681677457_1_alg».proof.Proof.KHost0w
import proofs.«173115_j73323681677457_1_alg».proof.Proof.KHost1
import proofs.«173115_j73323681677457_1_alg».proof.Proof.KHost2
import proofs.«173115_j73323681677457_1_alg».proof.Proof.RefChain

set_option maxRecDepth 16384

noncomputable section

namespace Cert.KernelIdeal.KValue

open Cert.KernelIdeal Cert.KernelIdeal.Gen Cert.KernelIdeal.Chain
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-! ## At the first region's entry -/

theorem src_entry0 (c : Dev nD) : W3 m ρ c (Proc.devRef .tc main_v5) = srcIdx (m ((c.tc : Thread nD τ).loc main_arg1)) := KHost0.src_of (W0 m ρ c)
theorem dst_entry0 (c : Dev nD) : W3 m ρ c (Proc.devRef .tc main_v6) = dstIdx (m ((c.tc : Thread nD τ).loc main_arg1)) := KHost0.dst_of (W0 m ρ c)
theorem weight_entry0 (c : Dev nD) : W3 m ρ c (Proc.devRef .tc main_v29) = edgeWeight (srcIdx (m ((c.tc : Thread nD τ).loc main_arg1))) (dstIdx (m ((c.tc : Thread nD τ).loc main_arg1))) := KHost0w.weight_of (W0 m ρ c)
theorem x_entry0 (c : Dev nD) : W3 m ρ c (Proc.devRef .tc main_arg0) = (m ((c.tc : Thread nD τ).loc main_arg0)) := KHost0.arg0_of (W0 m ρ c)
theorem w1_entry0 (c : Dev nD) : W3 m ρ c (Proc.devRef .tc main_arg2) = (m ((c.tc : Thread nD τ).loc main_arg2)) := KHost0.arg2_of (W0 m ρ c)
theorem b1_entry0 (c : Dev nD) : W3 m ρ c (Proc.devRef .tc main_arg3) = (m ((c.tc : Thread nD τ).loc main_arg3)) := KHost0.arg3_of (W0 m ρ c)
theorem w2_entry0 (c : Dev nD) : W3 m ρ c (Proc.devRef .tc main_arg4) = (m ((c.tc : Thread nD τ).loc main_arg4)) := KHost0.arg4_of (W0 m ρ c)
theorem b2_entry0 (c : Dev nD) : W3 m ρ c (Proc.devRef .tc main_arg5) = (m ((c.tc : Thread nD τ).loc main_arg5)) := KHost0.arg5_of (W0 m ρ c)

/-! ## At the first region's exit: h1 is the host dot product; everything else is as entered -/

/-- The region's whole-array product of x and W1 is the reference's dot product, the same sum entry by entry. -/
theorem h1_exit0 (c : Dev nD) : W4 m ρ c (Proc.devRef .tc main_v30) = val_main_v30 (F := Ideal) (m ((c.tc : Thread nD τ).loc main_arg0)) (m ((c.tc : Thread nD τ).loc main_arg2)) := by
  refine (W4_arr m ρ c 2).trans ?_
  rw [Layer1.final (V3 m ρ) c]
  rw [show V3 m ρ c main_arg0 = (m ((c.tc : Thread nD τ).loc main_arg0)) from x_entry0 m ρ c, show V3 m ρ c main_arg2 = (m ((c.tc : Thread nD τ).loc main_arg2)) from w1_entry0 m ρ c]
  funext i
  rw [val_main_v30_apply]
  unfold Layer1.product
  refine Finset.sum_congr rfl fun k _ => ?_
  have hl : Layer1.leftAt i k = lidx_main_v30 i k := funext fun a => by match a with | ⟨0, _⟩ => rfl | ⟨1, _⟩ => rfl
  have hr : Layer1.rightAt i k = ridx_main_v30 i k := funext fun a => by match a with | ⟨0, _⟩ => rfl | ⟨1, _⟩ => rfl
  rw [hl, hr]

theorem src_exit0 (c : Dev nD) : W4 m ρ c (Proc.devRef .tc main_v5) = srcIdx (m ((c.tc : Thread nD τ).loc main_arg1)) :=
  (W4_of_ne m ρ c main_v5 (by decide)).trans (src_entry0 m ρ c)
theorem dst_exit0 (c : Dev nD) : W4 m ρ c (Proc.devRef .tc main_v6) = dstIdx (m ((c.tc : Thread nD τ).loc main_arg1)) :=
  (W4_of_ne m ρ c main_v6 (by decide)).trans (dst_entry0 m ρ c)
theorem weight_exit0 (c : Dev nD) : W4 m ρ c (Proc.devRef .tc main_v29) = edgeWeight (srcIdx (m ((c.tc : Thread nD τ).loc main_arg1))) (dstIdx (m ((c.tc : Thread nD τ).loc main_arg1))) :=
  (W4_of_ne m ρ c main_v29 (by decide)).trans (weight_entry0 m ρ c)
theorem b1_exit0 (c : Dev nD) : W4 m ρ c (Proc.devRef .tc main_arg3) = (m ((c.tc : Thread nD τ).loc main_arg3)) :=
  (W4_of_ne m ρ c main_arg3 (by decide)).trans (b1_entry0 m ρ c)
theorem w2_exit0 (c : Dev nD) : W4 m ρ c (Proc.devRef .tc main_arg4) = (m ((c.tc : Thread nD τ).loc main_arg4)) :=
  (W4_of_ne m ρ c main_arg4 (by decide)).trans (w2_entry0 m ρ c)
theorem b2_exit0 (c : Dev nD) : W4 m ρ c (Proc.devRef .tc main_arg5) = (m ((c.tc : Thread nD τ).loc main_arg5)) :=
  (W4_of_ne m ρ c main_arg5 (by decide)).trans (b2_entry0 m ρ c)

/-! ## At the second region's entry: layer 1's activations -/

/-- Layer 1's tail of the product is the reference's activations stage. -/
theorem act_entry1 (c : Dev nD) : W6 m ρ c (Proc.devRef .tc main_v47)
    = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (KHost1.act_of (W4 m ρ c)).trans ?_
  rw [h1_exit0 m ρ c, src_exit0 m ρ c, dst_exit0 m ρ c, weight_exit0 m ρ c, b1_exit0 m ρ c]
  exact (Cert.ReferenceIdeal.RefChain.act_eq _ _ _ _).symm

theorem src_entry1 (c : Dev nD) : W6 m ρ c (Proc.devRef .tc main_v5) = srcIdx (m ((c.tc : Thread nD τ).loc main_arg1)) :=
  (KHost1.src_of (W4 m ρ c)).trans (src_exit0 m ρ c)
theorem dst_entry1 (c : Dev nD) : W6 m ρ c (Proc.devRef .tc main_v6) = dstIdx (m ((c.tc : Thread nD τ).loc main_arg1)) :=
  (KHost1.dst_of (W4 m ρ c)).trans (dst_exit0 m ρ c)
theorem weight_entry1 (c : Dev nD) : W6 m ρ c (Proc.devRef .tc main_v29) = edgeWeight (srcIdx (m ((c.tc : Thread nD τ).loc main_arg1))) (dstIdx (m ((c.tc : Thread nD τ).loc main_arg1))) :=
  (KHost1.weight_of (W4 m ρ c)).trans (weight_exit0 m ρ c)
theorem w2_entry1 (c : Dev nD) : W6 m ρ c (Proc.devRef .tc main_arg4) = (m ((c.tc : Thread nD τ).loc main_arg4)) :=
  (KHost1.arg4_of (W4 m ρ c)).trans (w2_exit0 m ρ c)
theorem b2_entry1 (c : Dev nD) : W6 m ρ c (Proc.devRef .tc main_arg5) = (m ((c.tc : Thread nD τ).loc main_arg5)) :=
  (KHost1.arg5_of (W4 m ρ c)).trans (b2_exit0 m ρ c)

/-! ## At the second region's exit: h2 is the host dot product of the activations with W2 -/

theorem h2_exit1 (c : Dev nD) : W7 m ρ c (Proc.devRef .tc main_v48)
    = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  rw [Layer2.final (V6 m ρ) c]
  rw [show V6 m ρ c main_v47 = _ from act_entry1 m ρ c, show V6 m ρ c main_arg4 = (m ((c.tc : Thread nD τ).loc main_arg4)) from w2_entry1 m ρ c]
  funext i
  rw [val_main_v74_apply]
  unfold Layer2.product
  refine Finset.sum_congr rfl fun k _ => ?_
  have hl : Layer2.leftAt i k = lidx_main_v74 i k := funext fun a => by match a with | ⟨0, _⟩ => rfl | ⟨1, _⟩ => rfl
  have hr : Layer2.rightAt i k = ridx_main_v74 i k := funext fun a => by match a with | ⟨0, _⟩ => rfl | ⟨1, _⟩ => rfl
  rw [hl, hr]

theorem src_exit1 (c : Dev nD) : W7 m ρ c (Proc.devRef .tc main_v5) = srcIdx (m ((c.tc : Thread nD τ).loc main_arg1)) :=
  (W7_of_ne m ρ c main_v5 (by decide)).trans (src_entry1 m ρ c)
theorem dst_exit1 (c : Dev nD) : W7 m ρ c (Proc.devRef .tc main_v6) = dstIdx (m ((c.tc : Thread nD τ).loc main_arg1)) :=
  (W7_of_ne m ρ c main_v6 (by decide)).trans (dst_entry1 m ρ c)
theorem weight_exit1 (c : Dev nD) : W7 m ρ c (Proc.devRef .tc main_v29) = edgeWeight (srcIdx (m ((c.tc : Thread nD τ).loc main_arg1))) (dstIdx (m ((c.tc : Thread nD τ).loc main_arg1))) :=
  (W7_of_ne m ρ c main_v29 (by decide)).trans (weight_entry1 m ρ c)
theorem b2_exit1 (c : Dev nD) : W7 m ρ c (Proc.devRef .tc main_arg5) = (m ((c.tc : Thread nD τ).loc main_arg5)) :=
  (W7_of_ne m ρ c main_arg5 (by decide)).trans (b2_entry1 m ρ c)

/-! ## The result -/

/-- Layer 2's tail of the second product is the reference's result stage. -/
theorem result_eq (c : Dev nD) : W8 m ρ c (Proc.devRef .tc main_v64)
    = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (KHost2.result_of (W7 m ρ c)).trans ?_
  rw [h2_exit1 m ρ c, src_exit1 m ρ c, dst_exit1 m ρ c, weight_exit1 m ρ c, b2_exit1 m ρ c]
  exact (Cert.ReferenceIdeal.RefChain.result_eq _ _ _ _ _ _).symm

end Cert.KernelIdeal.KValue

end
-- ==== Proof.lean ====
/-
  A two-layer graph convolution: each layer multiplies the node features by a weight matrix, gathers the product's rows
  by the edges' source nodes, scales each gathered row by 1 / sqrt(deg(source) · deg(target)) (degrees counted with a
  self loop on every node; a node of degree zero gets weight zero), adds the rows up by target node, and adds a bias;
  a relu sits between the layers. The kernel program does the two matrix products in pipelined regions, block of rows
  by block of rows, on operands narrowed to bf16, and everything else in host operations; the reference does all of it
  in host operations and builds the edge lists and the edge weights once per layer.

  Over the extended reals the narrowing is the identity and a block's product into a zero accumulator is the plain sum
  over the contracted axis, so each region leaves in its output array the product of the two arrays it finds
  (Proof/Layer1.lean, Proof/Layer2.lean: every block is a restriction of one whole-array function, and the blocks tile
  the rows), which is the reference's host dot product entry by entry. Every other operation is the same operation on
  both sides, applied to values already shown equal, so the result arrays agree (Proof/KValue.lean walks the kernel
  program's buffers boundary by boundary and states each as the reference's stage for that value). No law that could
  fail at an infinity is used: the two sides are the same sums of the same products, so the inputs' finiteness is not
  needed. The kernel program is its own idealization (the ideal pass rewrote nothing).
-/
import proofs.«173115_j73323681677457_1_alg».proof.Defs
import proofs.«173115_j73323681677457_1_alg».proof.Proof.Gen.Kernel
import proofs.«173115_j73323681677457_1_alg».proof.Proof.Gen.Kernel.Skeleton
import proofs.«173115_j73323681677457_1_alg».proof.Proof.Gen.Kernel.Launch
import proofs.«173115_j73323681677457_1_alg».proof.Proof.Gen.Kernel.Points
import proofs.«173115_j73323681677457_1_alg».proof.Proof.Gen.Kernel.Frame
import proofs.«173115_j73323681677457_1_alg».proof.Proof.Gen.KernelIdeal
import proofs.«173115_j73323681677457_1_alg».proof.Proof.Gen.KernelIdeal.Skeleton
import proofs.«173115_j73323681677457_1_alg».proof.Proof.Gen.KernelIdeal.Launch
import proofs.«173115_j73323681677457_1_alg».proof.Proof.Gen.KernelIdeal.Points
import proofs.«173115_j73323681677457_1_alg».proof.Proof.Gen.KernelIdeal.Frame
import proofs.«173115_j73323681677457_1_alg».proof.Proof.Gen.ReferenceIdeal
import proofs.«173115_j73323681677457_1_alg».proof.Proof.Gen.Pre_finite_inputs
import proofs.«173115_j73323681677457_1_alg».proof.Proof.KRun
import proofs.«173115_j73323681677457_1_alg».proof.Proof.KValue
import proofs.«173115_j73323681677457_1_alg».proof.Proof.RefRun
import proofs.«173115_j73323681677457_1_alg».proof.Proof.RefRead
import Idealize.ShloMosaic.Adequacy
import Idealize.ShloMosaic.Init

noncomputable section

namespace Cert.Proof

open Idealize.ShloMosaic Idealize.SL.Sem

/-- Both idealized programs run, and end with the same result: the kernel program's result array holds what its last
    stretch of host operations leaves there, which is the reference's result stage of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v64), Cert.KernelIdeal.KRun.run_main m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v90_eq, (hagree c).1, (hagree c).2.1, (hagree c).2.2.1, (hagree c).2.2.2.1,
    (hagree c).2.2.2.2.1, (hagree c).2.2.2.2.2]
  exact (Cert.KernelIdeal.KValue.result_eq m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunP.run (F := Ideal) m ρ),
  trivial,
  algebraic⟩

end Cert.Proof

end
